-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 81
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S100000, .f32⟩
  | .hbm, ⟨12, _⟩ => ⟨S640000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S640000x1, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S640000x1, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S_, .f32⟩
  | .hbm, ⟨71, _⟩ => ⟨S100000x128, .f32⟩
  | .hbm, ⟨72, _⟩ => ⟨S640000x1, .i32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S640000x1, .i32⟩
  | .hbm, ⟨77, _⟩ => ⟨S100000x128, .f32⟩
  | .hbm, ⟨78, _⟩ => ⟨S128x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S100000, .f32⟩
  | .hbm, ⟨12, _⟩ => ⟨S640000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S640000x1, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S640000x1, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S_, .f32⟩
  | .hbm, ⟨71, _⟩ => ⟨S100000x128, .f32⟩
  | .hbm, ⟨72, _⟩ => ⟨S640000x1, .i32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S640000x1, .i32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelBlocks.lean ====
/-
  The region's input blocks, read off their arrays.

  The region's grid has 20 points. At point t the three row-blocked operands (the node features
  and the two neighbourhood sums) are staged as rows 5000 t … 5000 t + 4999 of their arrays: row
  p of the block is row 5000 t + p of the array, the columns unchanged. The transposed weights
  and the bias row are staged whole at every point.
-/
import proofs.«127419_j39195871543809_1_alg».proof.Proof.Gen.KernelIdeal.Value
import Idealize.ShloMosaic.PureOps.Ideal
import Idealize.ShloMosaic.Lib.Pipeline.Value
import Idealize.ShloMosaic.Lib.ValueIdx
import Idealize.ShloMosaic.Lib.Tactic

noncomputable section

open scoped BigOperators

namespace Cert.KernelIdeal.LayerValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The arrays and the blocks, at their literal types -/

/-- The node features as the region finds them. -/
abbrev xarr (c : Dev nD) : Vec Ideal S100000x128 .f32 := V m c main_arg0
/-- The sum over the edges into each node, as the region finds it. -/
abbrev intoArr (c : Dev nD) : Vec Ideal S100000x128 .f32 := V m c main_v53
/-- The sum over the edges out of each node, as the region finds it. -/
abbrev outofArr (c : Dev nD) : Vec Ideal S100000x128 .f32 := V m c main_v56
/-- The transposed weights, as the region finds them. -/
abbrev wtArr (c : Dev nD) : Vec Ideal S128x128 .f32 := V m c main_v57
/-- The bias row, as the region finds it. -/
abbrev biasArr (c : Dev nD) : Vec Ideal S1x128 .f32 := V m c main_v58

abbrev xblk (c : Dev nD) (t : Fin cfg0.N) : Vec Ideal S5000x128 .f32 := iblk m c 0 t
abbrev intoBlk (c : Dev nD) (t : Fin cfg0.N) : Vec Ideal S5000x128 .f32 := iblk m c 1 t
abbrev outofBlk (c : Dev nD) (t : Fin cfg0.N) : Vec Ideal S5000x128 .f32 := iblk m c 2 t
abbrev wtBlk (c : Dev nD) (t : Fin cfg0.N) : Vec Ideal S128x128 .f32 := iblk m c 3 t
abbrev biasBlk (c : Dev nD) (t : Fin cfg0.N) : Vec Ideal S1x128 .f32 := iblk m c 4 t

/-- The printed index maps over the 20 points: the three row-blocked inputs and the output are at
    block (t, 0), the weights and the bias row at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each block read off its array

Which entry of its array a block's entry is depends only on the window's index map, not on what
the array holds: each reading is stated for arbitrary contents `W` of the core's buffers, and then
taken at the contents the region finds. -/

section Reads

variable (c : Dev nD) (W : (b : Ref sig .tc) → Buf (Elt Ideal) ((c : Thread nD τ).loc b))

/-- Row p of window 0's block at point t is row 5000 t + p of its array, for any contents. -/
theorem read_rows0 (t : Fin cfg0.N) (p : Fin 5000) (k : Fin 128) (r : Fin 100000) (hr : r.val = t.val * 5000 + p.val) :
    ((cfg0.win 0).blk t).view.read (Elt Ideal) (W (Pipeline.arrRef spec0 0)) (ix2 p k)
      = (W main_arg0 : Vec Ideal S100000x128 .f32) (ix2 r k) := by
  have e0 : win0_0.index t (0 : Fin 2) = t.val := (index_facts t).1
  have e1 : win0_0.index t (1 : Fin 2) = 0 := (index_facts t).2.1
  rw [View.read_apply]
  refine congrArg (W main_arg0) (funext fun a => Fin.ext ?_)
  match a with
  | ⟨0, _⟩ => show win0_0.index t (0 : Fin 2) * 5000 + 1 * p.val = r.val; rw [e0, hr, Nat.one_mul]
  | ⟨1, _⟩ => show win0_0.index t (1 : Fin 2) * 128 + 1 * k.val = k.val; rw [e1, Nat.zero_mul, Nat.zero_add, Nat.one_mul]

/-- Row p of window 1's block at point t is row 5000 t + p of its array, for any contents. -/
theorem read_rows1 (t : Fin cfg0.N) (p : Fin 5000) (k : Fin 128) (r : Fin 100000) (hr : r.val = t.val * 5000 + p.val) :
    ((cfg0.win 1).blk t).view.read (Elt Ideal) (W (Pipeline.arrRef spec0 1)) (ix2 p k)
      = (W main_v53 : Vec Ideal S100000x128 .f32) (ix2 r k) := by
  have e0 : win0_1.index t (0 : Fin 2) = t.val := (index_facts t).2.2.1
  have e1 : win0_1.index t (1 : Fin 2) = 0 := (index_facts t).2.2.2.1
  rw [View.read_apply]
  refine congrArg (W main_v53) (funext fun a => Fin.ext ?_)
  match a with
  | ⟨0, _⟩ => show win0_1.index t (0 : Fin 2) * 5000 + 1 * p.val = r.val; rw [e0, hr, Nat.one_mul]
  | ⟨1, _⟩ => show win0_1.index t (1 : Fin 2) * 128 + 1 * k.val = k.val; rw [e1, Nat.zero_mul, Nat.zero_add, Nat.one_mul]

/-- Row p of window 2's block at point t is row 5000 t + p of its array, for any contents. -/
theorem read_rows2 (t : Fin cfg0.N) (p : Fin 5000) (k : Fin 128) (r : Fin 100000) (hr : r.val = t.val * 5000 + p.val) :
    ((cfg0.win 2).blk t).view.read (Elt Ideal) (W (Pipeline.arrRef spec0 2)) (ix2 p k)
      = (W main_v56 : Vec Ideal S100000x128 .f32) (ix2 r k) := by
  have e0 : win0_2.index t (0 : Fin 2) = t.val := (index_facts t).2.2.2.2.1
  have e1 : win0_2.index t (1 : Fin 2) = 0 := (index_facts t).2.2.2.2.2.1
  rw [View.read_apply]
  refine congrArg (W main_v56) (funext fun a => Fin.ext ?_)
  match a with
  | ⟨0, _⟩ => show win0_2.index t (0 : Fin 2) * 5000 + 1 * p.val = r.val; rw [e0, hr, Nat.one_mul]
  | ⟨1, _⟩ => show win0_2.index t (1 : Fin 2) * 128 + 1 * k.val = k.val; rw [e1, Nat.zero_mul, Nat.zero_add, Nat.one_mul]

/-- The weights' one block is the whole array, for any contents. -/
theorem read_whole3 (t : Fin cfg0.N) (k q : Fin 128) :
    ((cfg0.win 3).blk t).view.read (Elt Ideal) (W (Pipeline.arrRef spec0 3)) (ix2 k q)
      = (W main_v57 : Vec Ideal S128x128 .f32) (ix2 k q) := by
  have e0 : win0_3.index t (0 : Fin 2) = 0 := (index_facts t).2.2.2.2.2.2.1
  have e1 : win0_3.index t (1 : Fin 2) = 0 := (index_facts t).2.2.2.2.2.2.2.1
  rw [View.read_apply]
  refine congrArg (W main_v57) (funext fun a => Fin.ext ?_)
  match a with
  | ⟨0, _⟩ => show win0_3.index t (0 : Fin 2) * 128 + 1 * k.val = k.val; rw [e0, Nat.zero_mul, Nat.zero_add, Nat.one_mul]
  | ⟨1, _⟩ => show win0_3.index t (1 : Fin 2) * 128 + 1 * q.val = q.val; rw [e1, Nat.zero_mul, Nat.zero_add, Nat.one_mul]

/-- The bias row's one block is the whole row, for any contents. -/
theorem read_whole4 (t : Fin cfg0.N) (q : Fin 128) :
    ((cfg0.win 4).blk t).view.read (Elt Ideal) (W (Pipeline.arrRef spec0 4)) (ix2 0 q)
      = (W main_v58 : Vec Ideal S1x128 .f32) (ix2 0 q) := by
  have e0 : win0_4.index t (0 : Fin 2) = 0 := (index_facts t).2.2.2.2.2.2.2.2.1
  have e1 : win0_4.index t (1 : Fin 2) = 0 := (index_facts t).2.2.2.2.2.2.2.2.2.1
  rw [View.read_apply]
  refine congrArg (W main_v58) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1, Nat.zero_mul, Nat.zero_add, Nat.one_mul]

end Reads

/-! ## The same at the contents the region finds -/

/-- Row p of the feature block at point t is row 5000 t + p of the features. -/
theorem xblk_apply (c : Dev nD) (t : Fin cfg0.N) (p : Fin 5000) (k : Fin 128) (r : Fin 100000)
    (hr : r.val = t.val * 5000 + p.val) : xblk m c t (ix2 p k) = xarr m c (ix2 r k) := by
  show iblk m c 0 t (ix2 p k) = V m c main_arg0 (ix2 r k)
  unfold iblk
  exact read_rows0 c (V m c) t p k r hr

/-- Row p of the block of the sum into each node at point t is row 5000 t + p of that sum. -/
theorem intoBlk_apply (c : Dev nD) (t : Fin cfg0.N) (p : Fin 5000) (k : Fin 128) (r : Fin 100000)
    (hr : r.val = t.val * 5000 + p.val) : intoBlk m c t (ix2 p k) = intoArr m c (ix2 r k) := by
  show iblk m c 1 t (ix2 p k) = V m c main_v53 (ix2 r k)
  unfold iblk
  exact read_rows1 c (V m c) t p k r hr

/-- Row p of the block of the sum out of each node at point t is row 5000 t + p of that sum. -/
theorem outofBlk_apply (c : Dev nD) (t : Fin cfg0.N) (p : Fin 5000) (k : Fin 128) (r : Fin 100000)
    (hr : r.val = t.val * 5000 + p.val) : outofBlk m c t (ix2 p k) = outofArr m c (ix2 r k) := by
  show iblk m c 2 t (ix2 p k) = V m c main_v56 (ix2 r k)
  unfold iblk
  exact read_rows2 c (V m c) t p k r hr

/-- The weights' one block is the whole transposed matrix. -/
theorem wtBlk_apply (c : Dev nD) (t : Fin cfg0.N) (k q : Fin 128) : wtBlk m c t (ix2 k q) = wtArr m c (ix2 k q) := by
  show iblk m c 3 t (ix2 k q) = V m c main_v57 (ix2 k q)
  unfold iblk
  exact read_whole3 c (V m c) t k q

/-- The bias row's one block is the whole row. -/
theorem biasBlk_apply (c : Dev nD) (t : Fin cfg0.N) (q : Fin 128) : biasBlk m c t (ix2 0 q) = biasArr m c (ix2 0 q) := by
  show iblk m c 4 t (ix2 0 q) = V m c main_v58 (ix2 0 q)
  unfold iblk
  exact read_whole4 c (V m c) t q

end Cert.KernelIdeal.LayerValue

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Payload.lean ====
/-
  One row block of the layer, entry by entry, at the ideal instance.

  The body adds three blocks of 5000 rows (the node features and the two neighbourhood sums),
  multiplies the result by a 128 x 128 matrix, adds a row of 128 biases to every row and clamps
  at zero from below. Rounding to a narrower float format is the identity on the extended reals,
  a shape cast to the same shape is the identity, and a product accumulated into the all-zero
  array is the plain contraction sum. So the block's entry at (p, q) is
      max (∑ k, ((x[p,k] + a[p,k]) + a'[p,k]) * w[k,q] + b[0,q]) 0 .
-/
import proofs.«127419_j39195871543809_1_alg».proof.Proof.Gen.KernelIdeal.Skeleton
import proofs.«127419_j39195871543809_1_alg».proof.Proof.LibDot2
import Idealize.ShloMosaic.Lib.ValueIdx
import Idealize.ShloMosaic.Lib.Pipeline.Value
import Idealize.ShloMosaic.PureOps.Ideal.Laws

noncomputable section

open scoped BigOperators

namespace Cert.KernelIdeal.Layer

open Cert.KernelIdeal Cert.KernelIdeal.Gen Idealize.ShloMosaic Idealize.ShloMosaic.ValueIdx

/-- The block product accumulated into zero, at (p, q): the sum over the 128 contracted
    coordinates of the products of the operands' entries. -/
theorem block_product_apply (l : FVec Ideal S5000x128 .bf16) (r : FVec Ideal S128x128 .bf16)
    (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Dot2.matmul_zero_mm_apply (M := 5000) (K := 128) (N := 128)
    dot_S5000x128_S128x128_S5000x128_1_0_0_1_n_n.wf none l r p q

/-- The bias row spread over the 5000 rows, at (p, q), is the row's entry q. -/
theorem bias_rows_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The stored block at (p, q). -/
theorem stored_apply (x a a' : Vec Ideal S5000x128 .f32) (w : Vec Ideal S128x128 .f32) (b : Vec Ideal S1x128 .f32)
    (p : Fin 5000) (q : Fin 128) :
    k0_pay1 (F := Ideal) x a a' w b (ix2 p q)
      = max ((∑ k : Fin 128, ((x (ix2 p k) + a (ix2 p k)) + a' (ix2 p k)) * w (ix2 k q)) + b (ix2 0 q)) 0 := by
  unfold k0_pay1
  simp only [shapeCast_self]
  rw [maximumf_apply, addf_apply, block_product_apply, bias_rows_apply, broadcast_apply]
  simp only [truncf_apply, addf_apply]
  show max _ (Ideal.ofBits .f32 0x00000000#32) = _
  rw [Ideal.ofBits_zero_f32]

end Cert.KernelIdeal.Layer

end
-- ==== Proof.Weights.lean ====
/-
  The two small arrays the host prepares for the region: the weights transposed and the bias
  as one row.

  Before the region the host transposes the 128 x 128 weight matrix and reshapes the 128 biases
  into a 1 x 128 row. Entry (k, q) of the transposed matrix is entry (q, k) of the matrix, and
  entry (0, q) of the row is bias q; no other host operation writes either array.
-/
import proofs.«127419_j39195871543809_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- When the region is entered the fourth operand's array holds the weight matrix transposed. -/
theorem transposed_eq (c : Dev nD) :
    (V m c main_v57 : S128x128.Idx → Elt F .f32)
      = transpose S128x128 [1, 0] (m ((c : Thread nD τ).loc main_arg2)) transposes_S128x128_S128x128_1_0 := by
  dsimp only [V]
  simp only [hostOps0, hostOps0_1, hostOps0_2, List.flatten_cons, List.flatten_nil, List.append_nil, List.cons_append,
    List.nil_append]
  after_results_simp <;> rfl

/-- When the region is entered the fifth operand's array holds the biases as one row. -/
theorem bias_row_eq (c : Dev nD) :
    (V m c main_v58 : S1x128.Idx → Elt F .f32)
      = shapeCast S1x128 (m ((c : Thread nD τ).loc main_arg3)) shapeCasts_S128_S1x128 := by
  dsimp only [V]
  simp only [hostOps0, hostOps0_1, hostOps0_2, List.flatten_cons, List.flatten_nil, List.append_nil, List.cons_append,
    List.nil_append]
  after_results_simp <;> rfl

/-- Entry (k, q) of the transposed weights is entry (q, k) of the weights. -/
theorem transposed_apply (c : Dev nD) (k q : Fin 128) :
    (V m c main_v57 : S128x128.Idx → Elt F .f32) (ix2 k q)
      = (m ((c : Thread nD τ).loc main_arg2) : S128x128.Idx → Elt F .f32) (ix2 q k) := by
  rw [transposed_eq]
  exact transpose_apply [1, 0] _ transposes_S128x128_S128x128_1_0 (ix2 k q) (ix2 q k) (fun b => match b with
    | ⟨0, _⟩ => rfl
    | ⟨1, _⟩ => rfl)

/-- Entry (0, q) of the bias row is bias q. -/
theorem bias_row_apply (c : Dev nD) (q : Fin 128) :
    (V m c main_v58 : S1x128.Idx → Elt F .f32) (ix2 0 q)
      = (m ((c : Thread nD τ).loc main_arg3) : S128.Idx → Elt F .f32) (ix1 q) := by
  rw [bias_row_eq]
  refine shapeCast_apply _ shapeCasts_S128_S1x128 (ix2 0 q) (ix1 q) ?_
  rw [Shape.rowMajor_val_one, Shape.rowMajor_val_two]
  show q.val = 0 * 128 + q.val
  omega

end Cert.KernelIdeal.Weights

end
-- ==== Proof.Spec.lean ====
/-
  The layer as one function of its arrays, over the extended reals.

  For node features x (100000 rows of 128), two arrays a and a' of the same shape (the two
  neighbourhood sums), a 128 x 128 weight matrix w and 128 biases b, the layer's value at
  (p, q) is
      max (∑ k, ((x[p,k] + a[p,k]) + a'[p,k]) * w[q,k] + b[q]) 0 :
  the residual sum times the transposed weights, plus the bias, clamped at zero from below.
  The grouping (x + a) + a' is the one both programs use, so no law of the extended reals beyond
  reading the operations entry by entry is needed, and no input has to be finite.
-/
import Idealize.ShloMosaic.PureOps.Ideal
import Idealize.ShloMosaic.Lib.ValueIdx

noncomputable section

open scoped BigOperators

namespace Cert.Layer

open Idealize.ShloMosaic Idealize.ShloMosaic.ValueIdx

/-- The layer's value: row p of (x + a) + a' against row q of w, plus b[q], clamped at zero. -/
def layer (x a a' : (⟨2, ![100000, 128]⟩ : Shape).Idx → EReal) (w : (⟨2, ![128, 128]⟩ : Shape).Idx → EReal)
    (b : (⟨1, ![128]⟩ : Shape).Idx → EReal) : (⟨2, ![100000, 128]⟩ : Shape).Idx → EReal :=
  fun i => max ((∑ k : Fin 128, ((x (ix2 (n0 := 100000) (n1 := 128) (i 0) k) + a (ix2 (n0 := 100000) (n1 := 128) (i 0) k))
      + a' (ix2 (n0 := 100000) (n1 := 128) (i 0) k)) * w (ix2 (n0 := 128) (n1 := 128) (i 1) k)) + b (ix1 (n := 128) (i 1))) 0

/-- The same at explicit coordinates. -/
theorem layer_apply (x a a' : (⟨2, ![100000, 128]⟩ : Shape).Idx → EReal) (w : (⟨2, ![128, 128]⟩ : Shape).Idx → EReal)
    (b : (⟨1, ![128]⟩ : Shape).Idx → EReal) (p : Fin 100000) (q : Fin 128) :
    layer x a a' w b (ix2 p q)
      = max ((∑ k : Fin 128, ((x (ix2 p k) + a (ix2 p k)) + a' (ix2 p k)) * w (ix2 q k)) + b (ix1 q)) 0 := rfl

end Cert.Layer

end
-- ==== Proof.KernelValue.lean ====
/-
  The kernel's result array is the layer of the arrays the region finds.

  Point t of the region's 20 grid points writes rows 5000 t … 5000 t + 4999 of the result. Entry
  (p, q) of the block it writes is the layer's value at (5000 t + p, q), because row p of each
  row-blocked input is row 5000 t + p of its array, and the weights and the bias row are staged
  whole. The 20 row blocks tile the result, so after the run the result array is the layer of x,
  the two neighbourhood sums, the weights and the biases.
-/
import proofs.«127419_j39195871543809_1_alg».proof.Proof.KernelBlocks
import proofs.«127419_j39195871543809_1_alg».proof.Proof.Payload
import proofs.«127419_j39195871543809_1_alg».proof.Proof.Weights
import proofs.«127419_j39195871543809_1_alg».proof.Proof.Spec
import Idealize.ShloMosaic.Lib.Pipeline.Value
import Idealize.ShloMosaic.Lib.Tactic

noncomputable section

open scoped BigOperators

namespace Cert.KernelIdeal.LayerValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## What a point writes, and the whole array -/

/-- Entry (k, q) of the transposed weights the region finds is entry (q, k) of the weights. -/
theorem wtArr_apply (c : Dev nD) (k q : Fin 128) :
    wtArr m c (ix2 k q) = (m ((c : Thread nD τ).loc main_arg2) : S128x128.Idx → Elt Ideal .f32) (ix2 q k) :=
  Cert.KernelIdeal.Weights.transposed_apply m c k q

/-- Entry (0, q) of the bias row the region finds is bias q. -/
theorem biasArr_apply (c : Dev nD) (q : Fin 128) :
    biasArr m c (ix2 0 q) = (m ((c : Thread nD τ).loc main_arg3) : S128.Idx → Elt Ideal .f32) (ix1 q) :=
  Cert.KernelIdeal.Weights.bias_row_apply m c q

/-- The layer of the arrays the region finds, the weights and biases read from the arguments. -/
abbrev result (c : Dev nD) : Vec Ideal S100000x128 .f32 :=
  Cert.Layer.layer (xarr m c) (intoArr m c) (outofArr m c) (m ((c : Thread nD τ).loc main_arg2)) (m ((c : Thread nD τ).loc main_arg3))

/-- Entry (p, q) of what point t stores is the layer's value at (5000 t + p, q). -/
theorem stored_eq_result (c : Dev nD) (t : Fin cfg0.N) (p : Fin 5000) (q : Fin 128) (r : Fin 100000)
    (hr : r.val = t.val * 5000 + p.val) :
    k0_pay1 (F := Ideal) (xblk m c t) (intoBlk m c t) (outofBlk m c t) (wtBlk m c t) (biasBlk m c t) (ix2 p q)
      = result m c (ix2 r q) := by
  show _ = Cert.Layer.layer (xarr m c) (intoArr m c) (outofArr m c) (m ((c : Thread nD τ).loc main_arg2))
    (m ((c : Thread nD τ).loc main_arg3)) (ix2 r q)
  rw [Cert.KernelIdeal.Layer.stored_apply, Cert.Layer.layer_apply, biasBlk_apply m c t q,
    biasArr_apply m c q]
  have hsum : (∑ k : Fin 128, ((xblk m c t (ix2 p k) + intoBlk m c t (ix2 p k)) + outofBlk m c t (ix2 p k)) * wtBlk m c t (ix2 k q))
      = ∑ k : Fin 128, ((xarr m c (ix2 r k) + intoArr m c (ix2 r k)) + outofArr m c (ix2 r k))
          * (m ((c : Thread nD τ).loc main_arg2) : S128x128.Idx → Elt Ideal .f32) (ix2 q k) :=
    Finset.sum_congr rfl fun k _ => by
      rw [xblk_apply m c t p k r hr, intoBlk_apply m c t p k r hr, outofBlk_apply m c t p k r hr, wtBlk_apply m c t k q,
        wtArr_apply m c k q]
  rw [hsum]

/-- Row a of block n, for n below 20 and a below 5000, is a row of the array. -/
theorem row_lt {n a : Nat} (hn : n < 20) (ha : a < 5000) : n * 5000 + a < 100000 := by omega

/-- A row of the array lies in one of the 20 row blocks … -/
theorem block_lt {a : Nat} (ha : a < 100000) : a / 5000 < 20 := by omega

/-- … namely in block a / 5000. -/
theorem block_bounds (a : Nat) : a / 5000 * 5000 ≤ a ∧ a < a / 5000 * 5000 + 5000 := by omega

/-- What point t writes back is block t of the result. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := index_facts t
  have ht : t.val < 20 := (show cfg0.N = 20 from N_0) ▸ t.isLt
  rw [flushed5]
  unfold out0_5
  rw [View.canon_unit_zero hz]
  simp only [View.ld_unit_zero (S := S5000x128) hz, View.ld_unit_zero (S := S128x128) hz, View.ld_unit_zero (S := S1x128) hz]
  funext j
  have hj0 : (j 0).val < 5000 := (j 0).isLt
  have hj1 : (j 1).val < 128 := (j 1).isLt
  have ej : j = ix2 (⟨(j 0).val, hj0⟩ : Fin 5000) (⟨(j 1).val, hj1⟩ : Fin 128) :=
    funext fun a => by match a with | ⟨0, _⟩ => rfl | ⟨1, _⟩ => rfl
  have ee : ((cfg0.win 5).blk t).view.emb j
      = ix2 (⟨t.val * 5000 + (j 0).val, row_lt ht hj0⟩ : Fin 100000) (⟨(j 1).val, hj1⟩ : Fin 128) := by
    funext a; apply Fin.ext
    match a with
    | ⟨0, _⟩ => show win0_5.index t (0 : Fin 2) * 5000 + 1 * (j 0).val = t.val * 5000 + (j 0).val; rw [e0, Nat.one_mul]
    | ⟨1, _⟩ => show win0_5.index t (1 : Fin 2) * 128 + 1 * (j 1).val = (j 1).val; rw [e1, Nat.zero_mul, Nat.zero_add, Nat.one_mul]
  show k0_pay1 (F := Ideal) (xblk m c t) (intoBlk m c t) (outofBlk m c t) (wtBlk m c t) (biasBlk m c t) j
    = result m c (((cfg0.win 5).blk t).view.emb j)
  rw [ee]
  refine (congrArg (k0_pay1 (F := Ideal) (xblk m c t) (intoBlk m c t) (outofBlk m c t) (wtBlk m c t) (biasBlk m c t)) ej).trans ?_
  exact stored_eq_result m c t _ _ _ rfl

/-- An index of the result is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v59).slice (win0_5.rect t)).set ↔ _
  rw [View.set_slice_whole, Rect.mem_set_unit]
  exact Iff.rfl

/-- Row r of the result is in the block of point r / 5000: the 20 row blocks tile the array. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := by rw [show cfg0.N = 20 from N_0]; exact block_lt hi0
  obtain ⟨-, -, -, -, -, -, -, -, -, -, e0, e1⟩ := index_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]; exact block_bounds (i 0).val
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1, Nat.zero_mul, Nat.zero_add]; exact ⟨Nat.zero_le _, hi1⟩

/-- After the run the result array is the layer of the arrays the region found. -/
theorem final (c : Dev nD) : (dats m 0 c).arrAt 5 cfg0.N = result m c :=
  (dats m 0 c).arrAt_eq_of_cover 5 (result m c) (fun t _ => flushed_eq m c t) covered

/-- The run, read: the result array at the layer, the arguments unchanged. -/
theorem run : θ_run defs (onTc (τ := τ) (main (F := Ideal))) ⟨m, fun _ => 0, ρ⟩ fun r => ∀ c : Dev nD,
      r.2.mem ((c : Thread nD τ).loc main_v59) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.LayerValue

end
-- ==== Proof.Aggregates.lean ====
/-
  The two neighbourhood sums the region reads are the reference's own.

  Both programs begin with the same message-passing stage: the two rows of the edge list, the
  degree of every node as two scatter-adds of ones, its inverse square root where the degree is
  positive, the per-edge weight as the product of the two gathered end points' factors, the
  gathered feature rows scaled by that weight, and the two scatter-adds of the scaled rows onto
  the other end point. The kernel's program and the reference apply the same operations, in the
  same order, to the same two inputs; so the array each scatter-add leaves is, as a function of
  x and the edge list, one and the same term in both programs.
-/
import proofs.«127419_j39195871543809_1_alg».proof.Proof.Gen.KernelIdeal.Frame
import proofs.«127419_j39195871543809_1_alg».proof.Proof.RefRead
import Idealize.ShloMosaic.Lib.StableHlo.Run

noncomputable section

namespace Cert.KernelIdeal.Aggregates

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The sum over the edges into each node (scattered on the second row of the edge list): what
    the region finds in its second operand is the reference's first scatter-add stage. -/
theorem into_eq (c : Dev nD) :
    (V m c main_v53 : S100000x128.Idx → Elt F .f32)
      = Cert.ReferenceIdeal.ReadP.val_main_v53 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

/-- The sum over the edges out of each node (scattered on the first row of the edge list): what
    the region finds in its third operand is the reference's second scatter-add stage. -/
theorem outof_eq (c : Dev nD) :
    (V m c main_v56 : S100000x128.Idx → Elt F .f32)
      = Cert.ReferenceIdeal.ReadP.val_main_v57 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

end Cert.KernelIdeal.Aggregates

end
-- ==== Proof.RefLayer.lean ====
/-
  The reference's result is the layer of its own two neighbourhood sums.

  After the two scatter-adds the reference adds them to x, multiplies by the transposed weights
  with the host's general dot product (at the ideal instance the contraction sum over the 128
  shared coordinates), adds the bias spread over the rows and takes the maximum with zero.
  Read entry by entry that is the layer's formula, with the weights read through the transpose
  (entry (k, q) of the transposed matrix is entry (q, k) of w) and the bias through its two
  broadcasts (entry (p, q) of the spread bias is b[q]).
-/
import proofs.«127419_j39195871543809_1_alg».proof.Proof.RefRead
import proofs.«127419_j39195871543809_1_alg».proof.Proof.Spec
import Idealize.ShloMosaic.PureOps.Ideal.Laws

noncomputable section

open scoped BigOperators

namespace Cert.ReferenceIdeal.RefLayer

open Cert.ReferenceIdeal Cert.ReferenceIdeal.ReadP Idealize.ShloMosaic Idealize.ShloMosaic.ValueIdx

/-- The last stage of the reference, as the layer of x, its two scatter-add stages, w and b. -/
theorem result_eq_layer (x : (⟨S100000x128, .f32⟩ : BufTy).Contents (Elt Ideal)) (e : (⟨S2x640000, .i32⟩ : BufTy).Contents (Elt Ideal))
    (w : (⟨S128x128, .f32⟩ : BufTy).Contents (Elt Ideal)) (b : (⟨S128, .f32⟩ : BufTy).Contents (Elt Ideal)) :
    val_main_v64 (F := Ideal) x e w b
      = Cert.Layer.layer x (val_main_v53 (F := Ideal) x e) (val_main_v57 (F := Ideal) x e) w b := by
  funext i
  obtain ⟨p, q, rfl⟩ : ∃ (p : Fin 100000) (q : Fin 128), i = ix2 p q := ⟨i 0, i 1, eq_ix2 i⟩
  have hl : ∀ k : Fin 128, lidx_main_v60 (ix2 p q) k = ix2 p k := fun k =>
    funext fun a => Fin.ext (by match a with | ⟨0, _⟩ => rfl | ⟨1, _⟩ => rfl)
  have hr : ∀ k : Fin 128, idx_main_v59 (ridx_main_v60 (ix2 p q) k) = ix2 q k := fun k =>
    funext fun a => Fin.ext (by match a with | ⟨0, _⟩ => rfl | ⟨1, _⟩ => rfl)
  have hb : idx_main_v61 (idx_main_v62 (ix2 p q)) = ix1 q :=
    funext fun a => Fin.ext (by match a with | ⟨0, _⟩ => rfl)
  rw [Cert.Layer.layer_apply, val_main_v64_apply, val_main_v63_apply, val_main_v60_apply, val_main_v62_apply,
    val_main_v61_apply, val_main_call1_v0_apply, val_main_call1_cst_apply]
  simp only [val_main_v58_apply, val_main_v54_apply, val_main_v59_apply, hl, hr, hb, Ideal.addf_def,
    Ideal.maximumf_def, Ideal.ofBits_def, Ideal.ofBits_zero_f32]

end Cert.ReferenceIdeal.RefLayer

end
-- ==== Proof.lean ====
/-
  A graph-convolution layer: relu((x + A x + Aᵀ x) Wᵀ + b), the kernel against its reference.

  Both programs first form, on the host and with the same operations in the same order, the two
  neighbourhood sums of the node features x over the edge list: every edge (s, d) sends
  norm · x[s] to d and norm · x[d] to s, norm the product of the two end points' inverse square
  root degrees. The reference then adds the two sums to x, multiplies by the transposed weights,
  adds the bias and clamps at zero, all on the host. The kernel does that last part in a region
  of 20 grid points, each computing 5000 rows: it adds the three row blocks, rounds to a narrower
  format (the identity on the extended reals), multiplies by the transposed weights accumulating
  into zero, adds the bias row and takes the maximum with zero.

  At the ideal instance both results are the one function `Cert.Layer.layer` of x, the two sums,
  W and b (Proof/Spec.lean): the kernel's by reading each stored block entry by entry and tiling
  the result with the 20 row blocks (Proof/Payload.lean, Proof/KernelValue.lean), the
  reference's by reading its last stage entry by entry (Proof/RefLayer.lean). The two sums are
  the same terms of x and the edge list in both programs (Proof/Aggregates.lean), and the
  transposed weights and the bias row are read through the transpose and the reshape
  (Proof/Weights.lean). Both programs group the residual sum as (x + a) + a', so the two sides
  agree term by term and the precondition (finite inputs) is not used.

  The three frames: the kernel's two are the generated frame certificates; the reference's is its
  run with the result dropped. No operation was rewritten by the ideal pass, so the
  idealization claim is trivial.
-/
import proofs.«127419_j39195871543809_1_alg».proof.Defs
import proofs.«127419_j39195871543809_1_alg».proof.Proof.Gen.Kernel
import proofs.«127419_j39195871543809_1_alg».proof.Proof.Gen.Kernel.Skeleton
import proofs.«127419_j39195871543809_1_alg».proof.Proof.Gen.Kernel.Launch
import proofs.«127419_j39195871543809_1_alg».proof.Proof.Gen.Kernel.Points
import proofs.«127419_j39195871543809_1_alg».proof.Proof.Gen.Kernel.Frame
import proofs.«127419_j39195871543809_1_alg».proof.Proof.Gen.KernelIdeal
import proofs.«127419_j39195871543809_1_alg».proof.Proof.Gen.KernelIdeal.Skeleton
import proofs.«127419_j39195871543809_1_alg».proof.Proof.Gen.KernelIdeal.Launch
import proofs.«127419_j39195871543809_1_alg».proof.Proof.Gen.KernelIdeal.Points
import proofs.«127419_j39195871543809_1_alg».proof.Proof.Gen.KernelIdeal.Frame
import proofs.«127419_j39195871543809_1_alg».proof.Proof.Gen.ReferenceIdeal
import proofs.«127419_j39195871543809_1_alg».proof.Proof.Gen.Pre_finite_inputs
import proofs.«127419_j39195871543809_1_alg».proof.Proof.Gen.KernelIdeal.Value
import proofs.«127419_j39195871543809_1_alg».proof.Proof.RefRead
import proofs.«127419_j39195871543809_1_alg».proof.Proof.KernelValue
import proofs.«127419_j39195871543809_1_alg».proof.Proof.Aggregates
import proofs.«127419_j39195871543809_1_alg».proof.Proof.RefLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- From memories that agree on the arguments both programs end with the layer of x, the two
    neighbourhood sums, W and b in their result arrays. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v64_eq, Cert.ReferenceIdeal.RefLayer.result_eq_layer,
    (hagree c).1, (hagree c).2.1, (hagree c).2.2.1, (hagree c).2.2.2]
  show _ = Cert.Layer.layer (Cert.KernelIdeal.Gen.V m c Cert.KernelIdeal.main_arg0)
    (Cert.KernelIdeal.Gen.V m c Cert.KernelIdeal.main_v53) (Cert.KernelIdeal.Gen.V m c Cert.KernelIdeal.main_v56) _ _
  rw [Cert.KernelIdeal.Gen.V_main_arg0, Cert.KernelIdeal.Aggregates.into_eq, Cert.KernelIdeal.Aggregates.outof_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
